-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x2048 : Shape := ⟨3, ![8, 8192, 2048]⟩
abbrev S_ : Shape := ⟨0, ![]⟩

class Facts : Prop where
  bcast_S_S8x8192x2048 : S_.BroadcastsInDim S8x8192x2048 (![] : Fin 0 → Fin S8x8192x2048.rank)
  reducesTo_S8x8192x2048_S_d0_1_2 : S8x8192x2048.ReducesTo [0, 1, 2] S_
  h_S_ : 0 < S_.numel

variable [Facts]

def fn {F : FTy → Type} [FloatOps F] (main_arg0 : FVec F S8x8192x2048 .f32) : IVec S_ 1 :=
  let main_v0 : FVec F S8x8192x2048 .f32 := Host.absf main_arg0
  let main_cst : FVec F S_ .f32 := constant S_ .f32 0x7F800000#32
  let main_v1 : FVec F S8x8192x2048 .f32 := broadcastInDim S8x8192x2048 ![] bcast_S_S8x8192x2048 main_cst
  let main_v2 : IVec S8x8192x2048 1 := cmpf .olt main_v0 main_v1
  let main_c : IVec S_ 1 := constantI S_ 1 1#1
  let main_v3 : IVec S_ 1 := (fun x v => Host.reduce IntOp.andi x v reducesTo_S8x8192x2048_S_d0_1_2 h_S_) main_v2 main_c
  main_v3
-- ==== Kernel.lean ====
abbrev S8x8192x2048 : Shape := ⟨3, ![8, 8192, 2048]⟩
abbrev S65536x2048 : Shape := ⟨2, ![65536, 2048]⟩
abbrev S512x2048 : Shape := ⟨2, ![512, 2048]⟩

abbrev nBuf : Space → Nat
  | .hbm => 4
  | .vmem => 4
  | .smem => 0
  | _ => 0

abbrev bufTy : (tb : Table) → Fin (tcTables nBuf tb) → BufTy
  | .hbm, ⟨0, _⟩ => ⟨S8x8192x2048, .f32⟩
  | .hbm, ⟨1, _⟩ => ⟨S65536x2048, .f32⟩
  | .hbm, ⟨2, _⟩ => ⟨S65536x2048, .f32⟩
  | .hbm, ⟨3, _⟩ => ⟨S8x8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S8x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x8192x2048_S65536x2048 : S8x8192x2048.ShapeCasts S65536x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S65536x2048_S8x8192x2048 : S65536x2048.ShapeCasts S8x8192x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S65536x2048.size a
  hwx0_0 : ∀ i : grid0.Coords, EltTy.bits .f32 = 32 ∨ (Rect.block (s := S65536x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S65536x2048.size a
  hwx0_1 : ∀ i : grid0.Coords, EltTy.bits .f32 = 32 ∨ (Rect.block (s := S65536x2048) S512x2048.size (cc0_transform_1 i) (hinb0_1 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x8192x2048 : Shape := ⟨3, ![8, 8192, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8x8192x2048, .f32⟩
  | .hbm, ⟨1, _⟩ => ⟨S8x8192x2048, .f32⟩
  | .hbm, ⟨2, _⟩ => ⟨S_, .f32⟩
  | .hbm, ⟨3, _⟩ => ⟨S8x8192x2048, .f32⟩
  | .hbm, ⟨4, _⟩ => ⟨S8x8192x2048, .f32⟩
  | .hbm, ⟨5, _⟩ => ⟨S8x8192x2048, .f32⟩
  | .hbm, ⟨6, _⟩ => ⟨S_, .f32⟩
  | .hbm, ⟨7, _⟩ => ⟨S8x8192x2048, .f32⟩
  | .hbm, ⟨8, _⟩ => ⟨S8x8192x2048, .f32⟩
  | .hbm, ⟨9, _⟩ => ⟨S8x8192x2048, .f32⟩
  | .hbm, ⟨10, _⟩ => ⟨S8x8192x2048, .f32⟩
  | .hbm, ⟨11, _⟩ => ⟨S_, .f32⟩
  | .hbm, ⟨12, _⟩ => ⟨S8x8192x2048, .f32⟩
  | .hbm, ⟨13, _⟩ => ⟨S8x8192x2048, .f32⟩
  | .hbm, ⟨14, _⟩ => ⟨S8x8192x2048, .f32⟩
  | .hbm, ⟨15, _⟩ => ⟨S_, .f32⟩
  | .hbm, ⟨16, _⟩ => ⟨S8x8192x2048, .f32⟩
  | .hbm, ⟨17, _⟩ => ⟨S8x8192x2048, .f32⟩
  | .hbm, ⟨18, _⟩ => ⟨S8x8192x2048, .f32⟩
  | .hbm, ⟨19, _⟩ => ⟨S_, .f32⟩
  | .hbm, ⟨20, _⟩ => ⟨S8x8192x2048, .f32⟩
  | .hbm, ⟨21, _⟩ => ⟨S8x8192x2048, .f32⟩
  | .hbm, ⟨22, _⟩ => ⟨S8x8192x2048, .f32⟩
  | _, _ => ⟨S8x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S8x8192x2048 : S_.BroadcastsInDim S8x8192x2048 (![] : Fin 0 → Fin S8x8192x2048.rank)

variable [Facts₀]

class Facts : Prop extends Facts₀ where

variable [Facts]
-- ==== Proof.Spec.lean ====
/-
  The function both programs compute, one entry at a time.

  For a real (or extended real) x let m = ⌈x⌉ and k = m · (m + 1) (the knot invariant). The result is

      (1/2 · x) · (1 + tanh (c₂ · (x + c₁ · ((k · k) · k))))

  with c₁ the binary32 number nearest 0.044715 and c₂ the binary32 number nearest √(2/π). The two constants
  enter both programs as the same binary32 words, so nothing is ever asked of their values; the products
  are grouped the same way on both sides, so no law of the extended reals is needed either.

  The kernel rounds up and takes tanh with the vector unit's operations, the reference with the host's;
  the definition below takes the two functions as parameters, and at the extended reals the two choices
  are one function.
-/
import Idealize.ShloMosaic.PureOps
import Idealize.ShloMosaic.PureOps.Ideal

noncomputable section

namespace Cert.KnotGelu

open Idealize.ShloMosaic

variable {F : FTy → Type} [FloatOps F]

/-- The knot invariant k = m · (m + 1) of m = up x, where `up` rounds up to an integer. -/
def knotWith (up : F .f32 → F .f32) (x : F .f32) : F .f32 :=
  FloatOps.mulf (up x) (FloatOps.addf (up x) (FloatOps.ofBits .f32 0x3F800000#32))

/-- (1/2 · x) · (1 + th (c₂ · (x + c₁ · ((k · k) · k)))), k the knot invariant of x. -/
def actWith (up th : F .f32 → F .f32) (x : F .f32) : F .f32 :=
  FloatOps.mulf (FloatOps.mulf (FloatOps.ofBits .f32 0x3F000000#32) x)
    (FloatOps.addf (FloatOps.ofBits .f32 0x3F800000#32)
      (th (FloatOps.mulf (FloatOps.ofBits .f32 0x3F4C422A#32)
        (FloatOps.addf x (FloatOps.mulf (FloatOps.ofBits .f32 0x3D372713#32)
          (FloatOps.mulf (FloatOps.mulf (knotWith up x) (knotWith up x)) (knotWith up x)))))))

/-- The activation with the vector unit's rounding up and tanh: what the kernel body computes per entry. -/
def act (x : F .f32) : F .f32 := actWith FloatOps.ceil FloatOps.tanh x

/-- The activation with the host's rounding up and tanh: what the reference computes per entry. -/
def actHost (x : F .f32) : F .f32 := actWith (FloatOps.hostUnary .ceil) (FloatOps.hostUnary .tanh) x

/-- On the extended reals the host's ⌈·⌉ and tanh are the vector unit's, so the two activations agree. -/
theorem actHost_eq_act (x : Ideal .f32) : actHost (F := Ideal) x = act (F := Ideal) x := rfl

end Cert.KnotGelu

end
-- ==== Proof.Payload.lean ====
/-
  The kernel body, read entry by entry.

  The body loads its input block whole, applies pointwise operations only (⌈·⌉, sums and products entry by
  entry, scalar constants splatted over the block, tanh; the one shape cast is to the block's own shape,
  which is the identity) and stores the result whole. So the stored block's entry at j is the activation of
  the loaded block's entry at j.
-/
import proofs.«175437_j53480932769916_1_alg».proof.Proof.Gen.KernelIdeal.Skeleton
import proofs.«175437_j53480932769916_1_alg».proof.Proof.Spec
import Idealize.ShloMosaic.Lib.Pipeline.Value

noncomputable section

namespace Cert.KernelIdeal.KnotValue

open Cert.KernelIdeal Cert.KernelIdeal.Gen Idealize.ShloMosaic

variable {F : FTy → Type} [FloatOps F]

/-- The value the body stores is the activation applied to each entry of the block it loaded. -/
theorem pay_eq (x0 : Vec F S512x2048 .f32) :
    k0_pay1 x0 = fun j => Cert.KnotGelu.act (F := F) (x0 j) := by
  unfold k0_pay1
  simp only [shapeCast_self]
  rfl

end Cert.KernelIdeal.KnotValue

end
-- ==== Proof.Blocks.lean ====
/-
  From blocks to the whole array.

  The region's input and output arrays are both 65536 × 2048, cut into 128 blocks of 512 whole rows; grid
  point t reads block t of the input and writes block t of the output, at the same rows. The body's stored
  block is the activation of the loaded block entry by entry, so what point t writes back is block t of the
  whole-array function "the activation of the input array's entry at the same index". Row r lies in the
  block of point r / 512, so the blocks cover the output array, and after the last point the array holds
  that function everywhere.
-/
import proofs.«175437_j53480932769916_1_alg».proof.Proof.Gen.KernelIdeal.Frame
import proofs.«175437_j53480932769916_1_alg».proof.Proof.Payload
import Idealize.ShloMosaic.Lib.Pipeline.Value

set_option maxRecDepth 16384

noncomputable section

namespace Cert.KernelIdeal.KnotValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The body's one load and one store start at the block's corner. -/
theorem corner : (![0, 0] : Fin 2 → Nat) = fun _ => 0 := funext fun a => by fin_cases a <;> rfl

/-- The activation of every entry of a 65536 × 2048 array. -/
abbrev actRows (a : S65536x2048.Idx → Elt F .f32) : S65536x2048.Idx → Elt F .f32 :=
  fun i => Cert.KnotGelu.act (F := F) (a i)

/-- At every grid point the input's block index is the output's, on both axes. -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Point t's output block is the t-th block of rows, over all columns. -/
theorem block_of_point : ∀ t : Fin cfg0.N, win0_1.index t (0 : Fin 2) = t.val ∧ win0_1.index t (1 : Fin 2) = 0 :=
  (by decide +kernel : ∀ t : Fin grid0.N, _)

/-- What point t writes back is block t of the activation of the input array as the region finds it. -/
theorem written_block (c : Dev nD) (t : Fin cfg0.N) :
    (dats m 0 c).flushed 1 t = ((cfg0.win 1).blk t).view.read (Elt F) (actRows (V m c main_v0)) := by
  show (cfg0.win 1).cut (grid0.coords t) ((dats m 0 c).after 1 t) = _
  rw [after0_1]
  unfold out0_1
  rw [View.canon_unit_zero corner]
  simp only [View.ld_unit_zero (S := S512x2048) corner]
  rw [pay_eq]
  obtain ⟨e0, e1⟩ := same_block t
  funext j
  show Cert.KnotGelu.act (F := F) (V m c main_v0 (((cfg0.win 0).blk t).view.emb j))
      = Cert.KnotGelu.act (F := F) (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 2048 + 1 * (j 1).val = win0_1.index t (1 : Fin 2) * 2048 + 1 * (j 1).val; omega
  rw [h0]

/-- An index of the output array is in point t's block iff each coordinate is in the block's range. -/
theorem mem_block (t : Fin cfg0.N) (i : S65536x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v1).slice (win0_1.rect t)).set ↔ _
  rw [View.set_slice_whole, Rect.mem_set_unit]
  exact Iff.rfl

/-- Every index of the output array is written: row r by point r / 512. -/
theorem covered (i : S65536x2048.Idx) :
    ∃ t : Fin cfg0.N, (cfg0.win 1).flush t = true ∧ i ∈ ((cfg0.win 1).blk t).view.set := by
  have hi0 : (i 0).val < 65536 := (i 0).isLt
  have hi1 : (i 1).val < 2048 := (i 1).isLt
  have hN : (i 0).val / 512 < cfg0.N := by show _ < grid0.N; rw [N_0]; omega
  obtain ⟨q0, q1⟩ := block_of_point ⟨(i 0).val / 512, hN⟩
  have q0' : win0_1.index ⟨(i 0).val / 512, hN⟩ (0 : Fin 2) = (i 0).val / 512 := q0
  refine ⟨⟨(i 0).val / 512, hN⟩, flush0_1 _, ?_⟩
  rw [mem_block]
  intro a
  match a with
  | ⟨0, _⟩ =>
    show win0_1.index ⟨(i 0).val / 512, hN⟩ (0 : Fin 2) * 512 ≤ (i 0).val
      ∧ (i 0).val < win0_1.index ⟨(i 0).val / 512, hN⟩ (0 : Fin 2) * 512 + 512
    omega
  | ⟨1, _⟩ =>
    show win0_1.index ⟨(i 0).val / 512, hN⟩ (1 : Fin 2) * 2048 ≤ (i 1).val
      ∧ (i 1).val < win0_1.index ⟨(i 0).val / 512, hN⟩ (1 : Fin 2) * 2048 + 2048
    omega

/-- After the last grid point the output array holds the activation of the input array, index by index. -/
theorem out_array (c : Dev nD) : (dats m 0 c).arrAt 1 cfg0.N = actRows (V m c main_v0) :=
  (dats m 0 c).arrAt_eq_of_cover 1 (actRows (V m c main_v0)) (fun t _ => written_block m c t) covered

end Cert.KernelIdeal.KnotValue

end
-- ==== Proof.KernelRun.lean ====
/-
  The kernel program's run, read entry by entry.

  Around the region the program only re-lays arrays out: the argument, 8 × 8192 × 2048, is cast to
  65536 × 2048 (the same entries in row-major order) before the region, and the region's output is cast back
  afterwards. The region leaves in its output the activation of its input, index by index; a function applied
  entry by entry commutes with a change of layout, and the cast there and back is the identity, so the
  program's result holds at every index the activation of the argument's entry at that index.
-/
import proofs.«175437_j53480932769916_1_alg».proof.Proof.Blocks
import Idealize.ShloMosaic.Lib.StableHlo.Run

set_option maxRecDepth 16384

noncomputable section

namespace Cert.KernelIdeal.KnotValue

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- Casting an array to another shape, applying f to every entry and casting back is applying f to every
    entry: the two casts are inverse re-indexings. -/
theorem map_between_casts {s t : Shape} {α β : Type} (f : α → β) (x : s.Idx → α) (h : s.ShapeCasts t)
    (h' : t.ShapeCasts s) : shapeCast s (fun j => f (shapeCast t x h j)) h' = fun i => f (x i) :=
  funext fun i => congrArg f (congrFun (shapeCast_shapeCast x h h') i)

/-- The region finds its input array holding the argument's entries, laid out as 65536 rows. -/
theorem entry_array (c : Dev nD) :
    (V m c main_v0 : S65536x2048.Idx → Elt F .f32)
      = shapeCast S65536x2048 (m ((c : Thread nD τ).loc main_arg0)) shapeCasts_S8x8192x2048_S65536x2048 := by
  show StableHlo.after hostOps0 (fun b => m (c, b)) (Proc.devRef .tc main_v0) = _
  after_results
  rfl

/-- After the last host line the result array holds the activation of the argument, index by index. -/
theorem result_array (c : Dev nD) :
    (Pipeline.afterTail₀ cfgs (dats m) 0 (V0 m) [hostOps1] c main_v2 : S8x8192x2048.Idx → Elt F .f32)
      = fun i => Cert.KnotGelu.act (F := F) (m ((c : Thread nD τ).loc main_arg0) i) := by
  unfold Pipeline.afterTail₀
  show StableHlo.after hostOps1 _ (Proc.devRef .tc main_v2) = _
  after_results
  have hout := (Pipeline.withArrays_arr spec0 launch0.win.arr_inj c (V0 m c)
    (fun w => (dats m 0 c).arrAt w cfg0.N) 1).trans (out_array m c)
  rw [entry_array] at hout
  refine Eq.trans ?_ (map_between_casts (Cert.KnotGelu.act (F := F)) (m ((c : Thread nD τ).loc main_arg0))
    shapeCasts_S8x8192x2048_S65536x2048 shapeCasts_S65536x2048_S8x8192x2048)
  exact congrArg (fun A : S65536x2048.Idx → Elt F .f32 =>
    shapeCast S8x8192x2048 A shapeCasts_S65536x2048_S8x8192x2048) hout

/-- Every weakly fair execution of the kernel program terminates with its result array holding, at every
    index, the activation of the argument's entry there, and the argument unchanged. -/
theorem run : θ_run defs (onTc (τ := τ) (main (F := F))) ⟨m, fun _ => 0, ρ⟩ fun r => ∀ c : Dev nD,
      r.2.mem ((c.tc : Thread nD τ).loc main_v2)
          = (fun i => Cert.KnotGelu.act (F := F) (m ((c.tc : Thread nD τ).loc main_arg0) i))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_array m c),
       ((h c).2 main_arg0 (Pipeline.mem_restRefs_of main_arg0 (by decide) (by decide))).trans
         (W_main_arg0 m (dats m) c)⟩)
    (run_main m ρ)

end Cert.KernelIdeal.KnotValue

end
-- ==== Proof.RefRun.lean ====
/-
  The reference, read entry by entry.

  The reference is a chain of whole-array operations, every one of them pointwise: ⌈·⌉, the four scalar
  constants broadcast to the array's shape, sums and products entry by entry, tanh. Read at an index i each
  stage is the scalar operation on the operands' entries at i, so the result's entry at i is the activation
  (with the host's ⌈·⌉ and tanh) of the argument's entry at i; on the extended reals that is the activation
  with the vector unit's ⌈·⌉ and tanh, the form the kernel side is stated in.
-/
import proofs.«175437_j53480932769916_1_alg».proof.Proof.Gen.ReferenceIdeal.Run
import proofs.«175437_j53480932769916_1_alg».proof.Proof.Spec

noncomputable section

namespace Cert.ReferenceIdeal.RefValue

open Cert.ReferenceIdeal Cert.ReferenceIdeal.Gen Idealize.ShloMosaic Idealize.ShloMosaic.TcCoe Idealize.SL.Sem

/-- Every weakly fair execution of the reference terminates with its result array holding, at every index,
    the activation of the argument's entry there, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
          = (fun i => Cert.KnotGelu.act (F := Ideal) (m ((c.tc : Thread nD τ).loc main_arg0) i))
      ∧ r.2.mem ((c.tc : Thread nD τ).loc main_arg0) = m ((c.tc : Thread nD τ).loc main_arg0) :=
  (θ_run defs _ _).mono (fun _ h c => ⟨(h c).1.trans (funext fun i =>
      (show _ = Cert.KnotGelu.actHost (F := Ideal) (m ((c.tc : Thread nD τ).loc main_arg0) i) from rfl).trans
        (Cert.KnotGelu.actHost_eq_act _)), (h c).2⟩)
    (Cert.ReferenceIdeal.Value.run (F := Ideal) m ρ)

end Cert.ReferenceIdeal.RefValue

end
-- ==== Proof.lean ====
/-
  A knot-invariant GELU, computed block by block by a kernel and array-wide by a reference.

  For every entry x of an 8 × 8192 × 2048 array both programs compute, with m = ⌈x⌉ and k = m · (m + 1),

      (1/2 · x) · (1 + tanh (c₂ · (x + c₁ · ((k · k) · k)))),

  c₁ and c₂ the same two binary32 constants on both sides. The kernel program re-lays the array out as
  65536 rows of 2048, lets 128 grid points each transform a block of 512 rows, and re-lays the result back;
  the reference applies the same chain of pointwise operations to the whole array. Read over the extended
  reals the two results agree entry by entry with no algebra at all: the operations, their grouping and the
  constants' words are the same, the vector unit's ⌈·⌉ and tanh are the host's, the blocks tile the array,
  and the change of layout there and back is the identity. The precondition (finite inputs) is never used.

  The kernel programs' frames are the generated ones; the reference's frame is its run with the result
  forgotten; the idealized kernel is the kernel's own text read over the extended reals, so there is nothing
  to preserve.
-/
import proofs.«175437_j53480932769916_1_alg».proof.Defs
import proofs.«175437_j53480932769916_1_alg».proof.Proof.Gen.Kernel
import proofs.«175437_j53480932769916_1_alg».proof.Proof.Gen.Kernel.Skeleton
import proofs.«175437_j53480932769916_1_alg».proof.Proof.Gen.Kernel.Launch
import proofs.«175437_j53480932769916_1_alg».proof.Proof.Gen.Kernel.Points
import proofs.«175437_j53480932769916_1_alg».proof.Proof.Gen.Kernel.Frame
import proofs.«175437_j53480932769916_1_alg».proof.Proof.Gen.KernelIdeal
import proofs.«175437_j53480932769916_1_alg».proof.Proof.Gen.KernelIdeal.Skeleton
import proofs.«175437_j53480932769916_1_alg».proof.Proof.Gen.KernelIdeal.Launch
import proofs.«175437_j53480932769916_1_alg».proof.Proof.Gen.KernelIdeal.Points
import proofs.«175437_j53480932769916_1_alg».proof.Proof.Gen.KernelIdeal.Frame
import proofs.«175437_j53480932769916_1_alg».proof.Proof.Gen.ReferenceIdeal
import proofs.«175437_j53480932769916_1_alg».proof.Proof.Gen.ReferenceIdeal.Run
import proofs.«175437_j53480932769916_1_alg».proof.Proof.Gen.Pre_finite_inputs
import proofs.«175437_j53480932769916_1_alg».proof.Proof.KernelRun
import proofs.«175437_j53480932769916_1_alg».proof.Proof.RefRun
import Idealize.ShloMosaic.Adequacy
import Idealize.ShloMosaic.Init

noncomputable section

namespace Cert.Proof

open Idealize.ShloMosaic Idealize.SL.Sem

/-- The kernel program as printed terminates, faults nowhere and leaves its argument as it was. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the argument both programs end with the activation of the argument's entry
    at every index of their results. -/
theorem algebraic : Cert.algebraic_KernelIdeal_ReferenceIdeal := by
  intro m ρ m' ρ' _ hagree
  refine ⟨_, Cert.KernelIdeal.KnotValue.run (F := Ideal) m ρ, ?_⟩
  refine (θ_run Cert.ReferenceIdeal.defs _ _).mono (fun _ h c => ⟨(h c).1.trans ?_, (h c).2⟩)
    (Cert.ReferenceIdeal.RefValue.run m' ρ')
  rw [hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
